-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096 : Shape := ⟨2, ![16, 4096]⟩
abbrev S11008x4096 : Shape := ⟨2, ![11008, 4096]⟩
abbrev S11008 : Shape := ⟨1, ![11008]⟩
abbrev S_ : Shape := ⟨0, ![]⟩

class Facts : Prop where
  bcast_S_S16x4096 : S_.BroadcastsInDim S16x4096 (![] : Fin 0 → Fin S16x4096.rank)
  reducesTo_S16x4096_S_d0_1 : S16x4096.ReducesTo [0, 1] S_
  h_S_ : 0 < S_.numel
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S16x4096 .f32) (main_arg1 : IVec S11008x4096 32) (main_arg2 : FVec F S11008 .f32) (main_arg3 : FVec F S11008 .f32) : IVec S_ 1 :=
  let main_v0 : FVec F S16x4096 .f32 := Host.absf main_arg0
  let main_cst : FVec F S_ .f32 := constant S_ .f32 0x7F800000#32
  let main_v1 : FVec F S16x4096 .f32 := broadcastInDim S16x4096 ![] bcast_S_S16x4096 main_cst
  let main_v2 : IVec S16x4096 1 := cmpf .olt main_v0 main_v1
  let main_c : IVec S_ 1 := constantI S_ 1 1#1
  let main_v3 : IVec S_ 1 := (fun x v => Host.reduce IntOp.andi x v reducesTo_S16x4096_S_d0_1 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S16x4096 : Shape := ⟨2, ![16, 4096]⟩
abbrev S11008x4096 : Shape := ⟨2, ![11008, 4096]⟩
abbrev S11008 : Shape := ⟨1, ![11008]⟩
abbrev S11008x1 : Shape := ⟨2, ![11008, 1]⟩
abbrev S1x11008 : Shape := ⟨2, ![1, 11008]⟩
abbrev S16x11008 : Shape := ⟨2, ![16, 11008]⟩
abbrev S256x4096 : Shape := ⟨2, ![256, 4096]⟩
abbrev S256x1 : Shape := ⟨2, ![256, 1]⟩
abbrev S1x256 : Shape := ⟨2, ![1, 256]⟩
abbrev S16x256 : Shape := ⟨2, ![16, 256]⟩

abbrev nBuf : Space → Nat
  | .hbm => 7
  | .vmem => 9
  | .smem => 0
  | _ => 0

abbrev bufTy : (tb : Table) → Fin (tcTables nBuf tb) → BufTy
  | .hbm, ⟨0, _⟩ => ⟨S16x4096, .f32⟩
  | .hbm, ⟨1, _⟩ => ⟨S11008x4096, .i32⟩
  | .hbm, ⟨2, _⟩ => ⟨S11008, .f32⟩
  | .hbm, ⟨3, _⟩ => ⟨S11008, .f32⟩
  | .hbm, ⟨4, _⟩ => ⟨S11008x1, .f32⟩
  | .hbm, ⟨5, _⟩ => ⟨S1x11008, .f32⟩
  | .hbm, ⟨6, _⟩ => ⟨S16x11008, .f32⟩
  | .local _ .vmem, ⟨0, _⟩ => ⟨S16x4096, .f32⟩
  | .local _ .vmem, ⟨1, _⟩ => ⟨S256x4096, .i32⟩
  | .local _ .vmem, ⟨2, _⟩ => ⟨S256x4096, .i32⟩
  | .local _ .vmem, ⟨3, _⟩ => ⟨S256x1, .f32⟩
  | .local _ .vmem, ⟨4, _⟩ => ⟨S256x1, .f32⟩
  | .local _ .vmem, ⟨5, _⟩ => ⟨S1x256, .f32⟩
  | .local _ .vmem, ⟨6, _⟩ => ⟨S1x256, .f32⟩
  | .local _ .vmem, ⟨7, _⟩ => ⟨S16x256, .f32⟩
  | .local _ .vmem, ⟨8, _⟩ => ⟨S16x256, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S11008_S11008x1 : S11008.ShapeCasts S11008x1
  shapeCasts_S11008_S1x11008 : S11008.ShapeCasts S1x11008
  inb_S16x4096_S16x4096_0_0 : ∀ a, (![0, 0] : Fin 2 → Nat) a + S16x4096.size a ≤ S16x4096.size a
  h_S16x4096 : 0 < S16x4096.numel
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S16x256 : S1x256.Broadcasts S16x256
  inb_S16x256_S16x256_0_0 : ∀ a, (![0, 0] : Fin 2 → Nat) a + S16x256.size a ≤ S16x256.size a
  h_S16x256 : 0 < S16x256.numel
  dot_S16x4096_S256x4096_S16x256_1_1_0_0_n_n_wf : DotDims.WF S16x4096 S256x4096 S16x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x4096.size a ≤ S16x4096.size a
  hwx0_0 : ∀ i : grid0.Coords, EltTy.bits .f32 = 32 ∨ (Rect.block (s := S16x4096) S16x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S11008x1.size a
  hwx0_2 : ∀ i : grid0.Coords, EltTy.bits .f32 = 32 ∨ (Rect.block (s := S11008x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x256.size a ≤ S16x11008.size a
  hwx0_4 : ∀ i : grid0.Coords, EltTy.bits .f32 = 32 ∨ (Rect.block (s := S16x11008) S16x256.size (cc0_transform_4 i) (hinb0_4 i)).WholeWords (EltTy.packing .f32)

variable [Facts₀]

def dot_S16x4096_S256x4096_S16x256_1_1_0_0_n_n : DotDims S16x4096 S256x4096 S16x256 where
  lhsContracting := [1]
  rhsContracting := [1]
  lhsNonContracting := [0]
  rhsNonContracting := [0]
  lhsBatch := []
  rhsBatch := []
  wf := dot_S16x4096_S256x4096_S16x256_1_1_0_0_n_n_wf

abbrev win0_0 : Pipeline.Window sig grid0 :=
  Pipeline.Window.ofSpec (Memref.whole main_arg0) S16x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S16x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x4096 : Shape := ⟨2, ![16, 4096]⟩
abbrev S11008x4096 : Shape := ⟨2, ![11008, 4096]⟩
abbrev S11008 : Shape := ⟨1, ![11008]⟩
abbrev S11008x1 : Shape := ⟨2, ![11008, 1]⟩
abbrev S16x11008 : Shape := ⟨2, ![16, 11008]⟩
abbrev S1x11008 : Shape := ⟨2, ![1, 11008]⟩

abbrev nBuf : Space → Nat
  | .hbm => 12
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S11008x4096, .i32⟩
  | .hbm, ⟨2, _⟩ => ⟨S11008, .f32⟩
  | .hbm, ⟨3, _⟩ => ⟨S11008, .f32⟩
  | .hbm, ⟨4, _⟩ => ⟨S11008x4096, .f32⟩
  | .hbm, ⟨5, _⟩ => ⟨S11008x1, .f32⟩
  | .hbm, ⟨6, _⟩ => ⟨S11008x4096, .f32⟩
  | .hbm, ⟨7, _⟩ => ⟨S11008x4096, .f32⟩
  | .hbm, ⟨8, _⟩ => ⟨S16x11008, .f32⟩
  | .hbm, ⟨9, _⟩ => ⟨S1x11008, .f32⟩
  | .hbm, ⟨10, _⟩ => ⟨S16x11008, .f32⟩
  | .hbm, ⟨11, _⟩ => ⟨S16x11008, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S11008_S1x11008_1 : S11008.BroadcastsInDim S1x11008 (![1] : Fin 1 → Fin S1x11008.rank)
  bcast_S1x11008_S16x11008_0_1 : S1x11008.BroadcastsInDim S16x11008 (![0, 1] : Fin 2 → Fin S16x11008.rank)
  dot_S16x4096_S11008x4096_S16x11008_1_1_0_0_n_n_wf : DotDims.WF S16x4096 S11008x4096 S16x11008 [1] [1] [0] [0] [] []

variable [Facts₀]

def dot_S16x4096_S11008x4096_S16x11008_1_1_0_0_n_n : DotDims S16x4096 S11008x4096 S16x11008 where
  lhsContracting := [1]
  rhsContracting := [1]
  lhsNonContracting := [0]
  rhsNonContracting := [0]
  lhsBatch := []
  rhsBatch := []
  wf := dot_S16x4096_S11008x4096_S16x11008_1_1_0_0_n_n_wf

class Facts : Prop extends Facts₀ where

variable [Facts]
-- ==== Proof.Spec.lean ====
/-
  The function both programs compute, over the extended reals.

  A quantised linear layer: the weight matrix is stored as integers `w[o, k]` with one scale `s[o]` per output
  channel, so the dequantised weight is `real(w[o, k]) · s[o]`, and the layer is

      y[b, o] = (∑ k < 4096, x[b, k] · (real(w[o, k]) · s[o])) + bias[o]        (b < 16, o < 11008).

  The product inside the sum is kept in exactly this grouping — the activation times the dequantised weight — because
  that is the grouping both programs use; so no law of the extended reals that could fail at an infinity (a factor moved
  across the sum, a product re-associated) is ever needed, and the inputs' finiteness plays no part.
-/
import Idealize.ShloMosaic.PureOps.Ideal
import Idealize.ShloMosaic.Lib.ValueIdx

noncomputable section

open scoped BigOperators

namespace Cert.QuantLinear

open Idealize.ShloMosaic Idealize.ShloMosaic.ValueIdx

/-- The dequantised weight at output channel `o` and input feature `k`: the stored integer read as a real, times the
    channel's scale. -/
def dequant (w : (⟨2, ![11008, 4096]⟩ : Shape).Idx → BitVec 32) (s : (⟨1, ![11008]⟩ : Shape).Idx → Ideal .f32)
    (o : Fin 11008) (k : Fin 4096) : Ideal .f32 :=
  FloatOps.sitofp (F := Ideal) .f32 (w (ix2 o k)) * s (ix1 o)

/-- The layer's output: for batch row `b` and output channel `o`, the inner product of `x`'s row `b` with the
    dequantised weight's row `o`, plus the channel's bias. -/
def linear (x : (⟨2, ![16, 4096]⟩ : Shape).Idx → Ideal .f32) (w : (⟨2, ![11008, 4096]⟩ : Shape).Idx → BitVec 32)
    (s : (⟨1, ![11008]⟩ : Shape).Idx → Ideal .f32) (bias : (⟨1, ![11008]⟩ : Shape).Idx → Ideal .f32) :
    (⟨2, ![16, 11008]⟩ : Shape).Idx → Ideal .f32 :=
  fun i => (∑ k : Fin 4096, x (ix2 (i 0) k) * dequant w s (i 1) k) + bias (ix1 (i 1))

/-- The output read at explicit coordinates. -/
theorem linear_ix2 (x : (⟨2, ![16, 4096]⟩ : Shape).Idx → Ideal .f32) (w : (⟨2, ![11008, 4096]⟩ : Shape).Idx → BitVec 32)
    (s : (⟨1, ![11008]⟩ : Shape).Idx → Ideal .f32) (bias : (⟨1, ![11008]⟩ : Shape).Idx → Ideal .f32)
    (b : Fin 16) (o : Fin 11008) :
    linear x w s bias (ix2 b o) = (∑ k : Fin 4096, x (ix2 b k) * dequant w s o k) + bias (ix1 o) := rfl

end Cert.QuantLinear

end
-- ==== Proof.RefLinear.lean ====
/-
  The reference computes `linear`.

  Read one operation at a time, the reference's result at the index (b, o) is the host's contraction of `x`'s row `b` with
  row `o` of the elementwise product "integer weight read as a real, times the scale broadcast along the row", plus the
  bias broadcast down the column. The two scale broadcasts ([11008] → [11008, 1] → [11008, 4096]) read the scale at `o`
  whatever the column, the two bias broadcasts ([11008] → [1, 11008] → [16, 11008]) read the bias at `o` whatever the row,
  and at the extended reals the host's contraction over its one contracted axis is the plain sum over `k < 4096`. What is
  left is the layer's formula, term for term.
-/
import proofs.«144215_j45810121179303_1_alg».proof.Proof.Gen.ReferenceIdeal.Read
import proofs.«144215_j45810121179303_1_alg».proof.Proof.Spec

noncomputable section

open scoped BigOperators

namespace Cert.ReferenceIdeal.RefLinear

open Cert.ReferenceIdeal Cert.ReferenceIdeal.Read Idealize.ShloMosaic Idealize.ShloMosaic.ValueIdx

/-- At the output index (b, o) the contraction reads `x` at (b, k). -/
theorem lidx_eq (b : Fin 16) (o : Fin 11008) (k : Fin 4096) : lidx_main_v4 (ix2 b o) k = ix2 b k :=
  funext fun a => by match a with | ⟨0, _⟩ => rfl | ⟨1, _⟩ => rfl

/-- At the output index (b, o) the contraction reads the dequantised weight at (o, k). -/
theorem ridx_eq (b : Fin 16) (o : Fin 11008) (k : Fin 4096) : ridx_main_v4 (ix2 b o) k = ix2 o k :=
  funext fun a => by match a with | ⟨0, _⟩ => rfl | ⟨1, _⟩ => rfl

/-- The scale, broadcast twice, is read at the weight's row. -/
theorem scale_idx_eq (o : Fin 11008) (k : Fin 4096) : idx_main_v1 (idx_main_v2 (ix2 o k)) = ix1 o :=
  funext fun a => by match a with | ⟨0, _⟩ => rfl

/-- The bias, broadcast twice, is read at the output's column. -/
theorem bias_idx_eq (b : Fin 16) (o : Fin 11008) : idx_main_v5 (idx_main_v6 (ix2 b o)) = ix1 o :=
  funext fun a => by match a with | ⟨0, _⟩ => rfl

/-- One summand of the contraction: `x[b, k]` times the dequantised weight at (o, k). -/
theorem summand_eq (x : (⟨S16x4096, .f32⟩ : BufTy).Contents (Elt Ideal)) (w : (⟨S11008x4096, .i32⟩ : BufTy).Contents (Elt Ideal))
    (s : (⟨S11008, .f32⟩ : BufTy).Contents (Elt Ideal)) (b : Fin 16) (o : Fin 11008) (k : Fin 4096) :
    x (lidx_main_v4 (ix2 b o) k) * val_main_v3 (F := Ideal) w s (ridx_main_v4 (ix2 b o) k)
      = x (ix2 b k) * Cert.QuantLinear.dequant w s o k := by
  rw [lidx_eq, ridx_eq, val_main_v3_apply, val_main_v2_apply, val_main_v1_apply, val_main_v0_apply, scale_idx_eq]
  rfl

/-- The reference's result, as a function of the four argument arrays, is the layer's output. -/
theorem ref_eq_linear (x : (⟨S16x4096, .f32⟩ : BufTy).Contents (Elt Ideal)) (w : (⟨S11008x4096, .i32⟩ : BufTy).Contents (Elt Ideal))
    (s bias : (⟨S11008, .f32⟩ : BufTy).Contents (Elt Ideal)) :
    val_main_v7 (F := Ideal) x w s bias = Cert.QuantLinear.linear x w s bias := by
  funext i
  obtain ⟨b, o, rfl⟩ : ∃ (b : Fin 16) (o : Fin 11008), i = ix2 b o := ⟨i 0, i 1, eq_ix2 i⟩
  rw [val_main_v7_apply, val_main_v4_apply, val_main_v6_apply, val_main_v5_apply, bias_idx_eq, Cert.QuantLinear.linear_ix2]
  exact congrArg (· + bias (ix1 o)) (Finset.sum_congr rfl fun k _ => summand_eq x w s b o k)

end Cert.ReferenceIdeal.RefLinear

end
-- ==== Proof.BodyAt.lean ====
/-
  The kernel's body at one element of its output block.

  At a grid point the body holds the whole activation `x` ([16, 4096]), a tile of 256 weight rows ([256, 4096], integers),
  the tile's scales as a column ([256, 1]) and the tile's biases as a row ([1, 256]). It converts the integers to reals,
  multiplies every weight row by its scale (the column broadcast along the row), contracts `x`'s feature axis against the
  tile's feature axis into a zero accumulator, and adds the bias row (broadcast down the batch axis). The two changes of
  float format on the way are the identity on the extended reals. So the element (b, j) of the [16, 256] result is

      (∑ k < 4096, x[b, k] · (real(w[j, k]) · s[j, 0])) + bias[0, j].
-/
import proofs.«144215_j45810121179303_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The two broadcasts -/

/-- The scale column, broadcast along the weight tile's rows, reads the row's scale whatever the column. -/
theorem scale_bcast_at (sc : Vec Ideal S256x1 .f32) (j : Fin 256) (k : Fin 4096) :
    broadcastTo S256x4096 (shapeCast S256x1 sc shapeCasts_S256x1_S256x1) broadcasts_S256x1_S256x4096 (ix2 j k)
      = sc (ix2 j (0 : Fin 1)) := by
  rw [shapeCast_self]
  exact broadcastTo_apply sc broadcasts_S256x1_S256x4096 (ix2 j k) (ix2 j (0 : Fin 1)) (fun a => match a with
    | ⟨0, _⟩ => by show j.val = if (256 : Nat) = 1 then 0 else j.val; rw [if_neg (by decide)]
    | ⟨1, _⟩ => by show 0 = if (1 : Nat) = 1 then 0 else k.val; rw [if_pos rfl])

/-- The bias row, broadcast down the batch axis, reads the column's bias whatever the row. -/
theorem bias_bcast_at (bi : Vec Ideal S1x256 .f32) (b : Fin 16) (j : Fin 256) :
    broadcastTo S16x256 (shapeCast S1x256 bi shapeCasts_S1x256_S1x256) broadcasts_S1x256_S16x256 (ix2 b j)
      = bi (ix2 (0 : Fin 1) j) := by
  rw [shapeCast_self]
  exact broadcastTo_apply bi broadcasts_S1x256_S16x256 (ix2 b j) (ix2 (0 : Fin 1) j) (fun a => match a with
    | ⟨0, _⟩ => by show 0 = if (1 : Nat) = 1 then 0 else b.val; rw [if_pos rfl]
    | ⟨1, _⟩ => by show j.val = if (256 : Nat) = 1 then 0 else j.val; rw [if_neg (by decide)])

/-! ## The contraction -/

/-- The left operand's row is the output's row. -/
theorem lhs_axis0 (i : S16x256.Idx) (q : dot_S16x4096_S256x4096_S16x256_1_1_0_0_n_n.contr.Idx) :
    (dot_S16x4096_S256x4096_S16x256_1_1_0_0_n_n.lhsIdx i q 0).val = (i 0).val := by
  unfold DotDims.lhsIdx
  rw [dif_neg (show ¬(0 : Fin S16x4096.rank) ∈ dot_S16x4096_S256x4096_S16x256_1_1_0_0_n_n.lhsBatch by decide), dif_pos (show (0 : Fin S16x4096.rank) ∈ dot_S16x4096_S256x4096_S16x256_1_1_0_0_n_n.lhsNonContracting by decide)]
  rfl
/-- The left operand's column is the contracted coordinate. -/
theorem lhs_axis1 (i : S16x256.Idx) (q : dot_S16x4096_S256x4096_S16x256_1_1_0_0_n_n.contr.Idx) :
    (dot_S16x4096_S256x4096_S16x256_1_1_0_0_n_n.lhsIdx i q 1).val = (q ⟨0, by decide⟩).val :=
  dot_S16x4096_S256x4096_S16x256_1_1_0_0_n_n.lhsIdx_val_of_single rfl i q
/-- The right operand's row is the output's column: the tile is contracted along ITS feature axis too. -/
theorem rhs_axis0 (i : S16x256.Idx) (q : dot_S16x4096_S256x4096_S16x256_1_1_0_0_n_n.contr.Idx) :
    (dot_S16x4096_S256x4096_S16x256_1_1_0_0_n_n.rhsIdx i q 0).val = (i 1).val := by
  unfold DotDims.rhsIdx
  rw [dif_neg (show ¬(0 : Fin S256x4096.rank) ∈ dot_S16x4096_S256x4096_S16x256_1_1_0_0_n_n.rhsBatch by decide), dif_pos (show (0 : Fin S256x4096.rank) ∈ dot_S16x4096_S256x4096_S16x256_1_1_0_0_n_n.rhsNonContracting by decide)]
  rfl
/-- The right operand's column is the contracted coordinate. -/
theorem rhs_axis1 (i : S16x256.Idx) (q : dot_S16x4096_S256x4096_S16x256_1_1_0_0_n_n.contr.Idx) :
    (dot_S16x4096_S256x4096_S16x256_1_1_0_0_n_n.rhsIdx i q 1).val = (q ⟨0, by decide⟩).val :=
  dot_S16x4096_S256x4096_S16x256_1_1_0_0_n_n.rhsIdx_val_of_single rfl i q

/-- The contraction into a zero accumulator, at (b, j): the plain sum over the shared feature axis of the left operand's
    row `b` against the right operand's row `j`. -/
theorem contract_at (l : FVec Ideal S16x4096 .bf16) (r : FVec Ideal S256x4096 .bf16) (b : Fin 16) (j : Fin 256) :
    matmul dot_S16x4096_S256x4096_S16x256_1_1_0_0_n_n none l r (constant (F := Ideal) S16x256 .f32 0x00000000#32) (ix2 b j)
      = ∑ k : Fin 4096, l (ix2 b k) * r (ix2 j k) := by
  simp only [matmul]
  rw [Ideal.matmul_constant_zero_apply, ← Equiv.sum_comp (contrEquiv1 dot_S16x4096_S256x4096_S16x256_1_1_0_0_n_n 4096 rfl rfl).symm]
  refine Finset.sum_congr rfl fun k _ => ?_
  have hk := contrEquiv1_symm_val dot_S16x4096_S256x4096_S16x256_1_1_0_0_n_n 4096 rfl rfl k
  have el : dot_S16x4096_S256x4096_S16x256_1_1_0_0_n_n.lhsIdx (ix2 b j) ((contrEquiv1 dot_S16x4096_S256x4096_S16x256_1_1_0_0_n_n 4096 rfl rfl).symm k) = ix2 b k := funext fun a => Fin.ext (by
    match a with
    | ⟨0, _⟩ => exact lhs_axis0 _ _
    | ⟨1, _⟩ => exact (lhs_axis1 _ _).trans hk)
  have er : dot_S16x4096_S256x4096_S16x256_1_1_0_0_n_n.rhsIdx (ix2 b j) ((contrEquiv1 dot_S16x4096_S256x4096_S16x256_1_1_0_0_n_n 4096 rfl rfl).symm k) = ix2 j k := funext fun a => Fin.ext (by
    match a with
    | ⟨0, _⟩ => exact rhs_axis0 _ _
    | ⟨1, _⟩ => exact (rhs_axis1 _ _).trans hk)
  rw [el, er]

/-! ## The body's result at an element -/

/-- Element (b, j) of what the body stores, from the four blocks it loads. -/
theorem body_at (x : Vec Ideal S16x4096 .f32) (wt : Vec Ideal S256x4096 .i32) (sc : Vec Ideal S256x1 .f32) (bi : Vec Ideal S1x256 .f32)
    (b : Fin 16) (j : Fin 256) :
    k0_pay1 (F := Ideal) x wt sc bi (ix2 b j)
      = (∑ k : Fin 4096, x (ix2 b k) * (FloatOps.sitofp (F := Ideal) .f32 (wt (ix2 j k)) * sc (ix2 j (0 : Fin 1)))) + bi (ix2 (0 : Fin 1) j) := by
  show addf (matmul dot_S16x4096_S256x4096_S16x256_1_1_0_0_n_n none (truncf .bf16 x bitsLt_bf16_f32)
      (truncf .bf16 (mulf (sitofp .f32 wt) (broadcastTo S256x4096 (shapeCast S256x1 sc shapeCasts_S256x1_S256x1) broadcasts_S256x1_S256x4096)) bitsLt_bf16_f32)
      (constant (F := Ideal) S16x256 .f32 0x00000000#32))
    (broadcastTo S16x256 (shapeCast S1x256 bi shapeCasts_S1x256_S1x256) broadcasts_S1x256_S16x256) (ix2 b j) = _
  rw [addf_apply, contract_at, bias_bcast_at]
  refine congrArg (· + bi (ix2 (0 : Fin 1) j)) (Finset.sum_congr rfl fun k _ => ?_)
  rw [truncf_apply, truncf_apply, mulf_apply, sitofp_apply, scale_bcast_at]

end Cert.KernelIdeal.Body

end
-- ==== Proof.KernelLinear.lean ====
/-
  From the kernel's blocks to its whole result: the kernel computes `linear`.

  The grid has 43 points. At point `t` the pipeline stages the whole activation `x`, rows 256·t … 256·t + 255 of the integer
  weight, the same rows of the scale column, the same columns of the bias row, and writes back columns 256·t … 256·t + 255
  of the [16, 11008] result. The scale column and the bias row are reshapes ([11008] → [11008, 1] and [11008] → [1, 11008])
  that the program makes before the region; a reshape keeps row-major positions, so the column at (o, 0) and the row at
  (0, o) both read the original vector at `o`.

  So element (b, j) of the block written at point `t` is the body's formula with every block entry replaced by the array
  entry it was fetched from, which is the layer's output at (b, 256·t + j). The 43 column tiles cover the result (column
  `o` lies in tile `o / 256`), so the array after the run is the layer's output everywhere.
-/
import proofs.«144215_j45810121179303_1_alg».proof.Proof.Gen.KernelIdeal.Value
import proofs.«144215_j45810121179303_1_alg».proof.Proof.BodyAt
import proofs.«144215_j45810121179303_1_alg».proof.Proof.Spec
import Idealize.ShloMosaic.Lib.StableHlo.Run

set_option maxRecDepth 16384

noncomputable section

open scoped BigOperators

namespace Cert.KernelIdeal.KernelLinear

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## Where each window's block sits at a point -/

/-- The zero offset of a whole-block access, spelt as a constant function. -/
theorem zero_off : (![0, 0] : Fin 2 → Nat) = fun _ => 0 := funext fun a => by fin_cases a <;> rfl

/-- The block indices at point `t`: `x` is always block (0, 0); the weight and the scale column move down with `t`; the bias
    row and the result move right with `t`. -/
theorem block_index : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-! ## The two reshaped vectors, as the region finds them -/

/-- The scale column is the scale vector reshaped to [11008, 1]. -/
theorem scale_column (c : Dev nD) :
    (V m c main_v0 : S11008x1.Idx → Ideal .f32) = shapeCast S11008x1 (m ((c : Thread nD τ).loc main_arg2)) shapeCasts_S11008_S11008x1 := by
  dsimp only [Gen.V, Gen.hostOps0]; after_results; rfl

/-- The bias row is the bias vector reshaped to [1, 11008]. -/
theorem bias_row (c : Dev nD) :
    (V m c main_v1 : S1x11008.Idx → Ideal .f32) = shapeCast S1x11008 (m ((c : Thread nD τ).loc main_arg3)) shapeCasts_S11008_S1x11008 := by
  dsimp only [Gen.V, Gen.hostOps0]; after_results; rfl

/-- The column at (o, 0) is the vector at `o`. -/
theorem column_at (v : S11008.Idx → Ideal .f32) (o : Fin 11008) :
    shapeCast S11008x1 v shapeCasts_S11008_S11008x1 (ix2 o (0 : Fin 1)) = v (ix1 o) :=
  shapeCast_apply v shapeCasts_S11008_S11008x1 (ix2 o (0 : Fin 1)) (ix1 o) (by
    rw [Shape.rowMajor_val_one, Shape.rowMajor_val_two]
    show o.val = o.val * 1 + 0
    omega)

/-- The row at (0, o) is the vector at `o`. -/
theorem row_at (v : S11008.Idx → Ideal .f32) (o : Fin 11008) :
    shapeCast S1x11008 v shapeCasts_S11008_S1x11008 (ix2 (0 : Fin 1) o) = v (ix1 o) :=
  shapeCast_apply v shapeCasts_S11008_S1x11008 (ix2 (0 : Fin 1) o) (ix1 o) (by
    rw [Shape.rowMajor_val_one, Shape.rowMajor_val_two]
    show o.val = 0 * 11008 + o.val
    omega)

/-! ## Each staged block read back to the argument it was fetched from -/

/-- The activation block is the whole activation. -/
theorem x_block_at (c : Dev nD) (t : Fin cfg0.N) (b : Fin 16) (k : Fin 4096) :
    iblk m c 0 t (ix2 b k) = m ((c : Thread nD τ).loc main_arg0) (ix2 b k) := by
  show V m c main_arg0 (((cfg0.win 0).blk t).view.emb (ix2 b k)) = _
  rw [V_main_arg0]
  obtain ⟨e0, e1, -⟩ := block_index t
  refine congrArg _ (funext fun a => Fin.ext ?_)
  match a with
  | ⟨0, _⟩ => show win0_0.index t (0 : Fin 2) * 16 + 1 * b.val = b.val; omega
  | ⟨1, _⟩ => show win0_0.index t (1 : Fin 2) * 4096 + 1 * k.val = k.val; omega

/-- Row `j` of the weight tile at point `t` is row 256·t + j of the weight. -/
theorem w_block_at (c : Dev nD) (t : Fin cfg0.N) (j : Fin 256) (k : Fin 4096) (o : Fin 11008) (ho : o.val = t.val * 256 + j.val) :
    iblk m c 1 t (ix2 j k) = m ((c : Thread nD τ).loc main_arg1) (ix2 o k) := by
  show V m c main_arg1 (((cfg0.win 1).blk t).view.emb (ix2 j k)) = _
  rw [V_main_arg1]
  obtain ⟨-, -, e0, e1, -⟩ := block_index t
  refine congrArg _ (funext fun a => Fin.ext ?_)
  match a with
  | ⟨0, _⟩ => show win0_1.index t (0 : Fin 2) * 256 + 1 * j.val = o.val; omega
  | ⟨1, _⟩ => show win0_1.index t (1 : Fin 2) * 4096 + 1 * k.val = k.val; omega

/-- Entry `j` of the scale tile at point `t` is the scale of channel 256·t + j. -/
theorem s_block_at (c : Dev nD) (t : Fin cfg0.N) (j : Fin 256) (o : Fin 11008) (ho : o.val = t.val * 256 + j.val) :
    iblk m c 2 t (ix2 j (0 : Fin 1)) = m ((c : Thread nD τ).loc main_arg2) (ix1 o) := by
  show V m c main_v0 (((cfg0.win 2).blk t).view.emb (ix2 j (0 : Fin 1))) = _
  obtain ⟨-, -, -, -, e0, e1, -⟩ := block_index t
  have e : ((cfg0.win 2).blk t).view.emb (ix2 j (0 : Fin 1)) = ix2 o (0 : Fin 1) := funext fun a => Fin.ext (by
    match a with
    | ⟨0, _⟩ => show win0_2.index t (0 : Fin 2) * 256 + 1 * j.val = o.val; omega
    | ⟨1, _⟩ => show win0_2.index t (1 : Fin 2) * 1 + 1 * 0 = 0; omega)
  rw [e, scale_column]
  exact column_at _ o

/-- Entry `j` of the bias tile at point `t` is the bias of channel 256·t + j. -/
theorem b_block_at (c : Dev nD) (t : Fin cfg0.N) (j : Fin 256) (o : Fin 11008) (ho : o.val = t.val * 256 + j.val) :
    iblk m c 3 t (ix2 (0 : Fin 1) j) = m ((c : Thread nD τ).loc main_arg3) (ix1 o) := by
  show V m c main_v1 (((cfg0.win 3).blk t).view.emb (ix2 (0 : Fin 1) j)) = _
  obtain ⟨-, -, -, -, -, -, e0, e1, -⟩ := block_index t
  have e : ((cfg0.win 3).blk t).view.emb (ix2 (0 : Fin 1) j) = ix2 (0 : Fin 1) o := funext fun a => Fin.ext (by
    match a with
    | ⟨0, _⟩ => show win0_3.index t (0 : Fin 2) * 1 + 1 * 0 = 0; omega
    | ⟨1, _⟩ => show win0_3.index t (1 : Fin 2) * 256 + 1 * j.val = o.val; omega)
  rw [e, bias_row]
  exact row_at _ o

/-- Element (b, j) of the result tile at point `t` is element (b, 256·t + j) of the result. -/
theorem out_block_at (t : Fin cfg0.N) (b : Fin 16) (j : Fin 256) (o : Fin 11008) (ho : o.val = t.val * 256 + j.val) :
    ((cfg0.win 4).blk t).view.emb (ix2 b j) = ix2 b o := by
  obtain ⟨-, -, -, -, -, -, -, -, e0, e1⟩ := block_index t
  refine funext fun a => Fin.ext ?_
  match a with
  | ⟨0, _⟩ => show win0_4.index t (0 : Fin 2) * 16 + 1 * b.val = b.val; omega
  | ⟨1, _⟩ => show win0_4.index t (1 : Fin 2) * 256 + 1 * j.val = o.val; omega

/-! ## What a point writes back -/

/-- The layer's output of the four argument arrays as launched. -/
abbrev result (c : Dev nD) : S16x11008.Idx → Ideal .f32 :=
  Cert.QuantLinear.linear (m ((c : Thread nD τ).loc main_arg0)) (m ((c : Thread nD τ).loc main_arg1))
    (m ((c : Thread nD τ).loc main_arg2)) (m ((c : Thread nD τ).loc main_arg3))

/-- Point `t` writes back tile `t` of the layer's output. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero zero_off]
  simp only [View.ld_unit_zero (S := S16x4096) zero_off, View.ld_unit_zero (S := S256x4096) zero_off,
    View.ld_unit_zero (S := S256x1) zero_off, View.ld_unit_zero (S := S1x256) zero_off]
  funext y
  obtain ⟨b, j, rfl⟩ : ∃ (b : Fin 16) (j : Fin 256), y = ix2 b j := ⟨y 0, y 1, eq_ix2 y⟩
  have ht : t.val < 43 := lt_of_lt_of_eq t.isLt N_0
  have ho : (⟨t.val * 256 + j.val, by have := j.isLt; omega⟩ : Fin 11008).val = t.val * 256 + j.val := rfl
  show k0_pay1 (F := Ideal) (iblk m c 0 t) (iblk m c 1 t) (iblk m c 2 t) (iblk m c 3 t) (ix2 b j)
    = result m c (((cfg0.win 4).blk t).view.emb (ix2 b j))
  rw [out_block_at t b j _ ho]
  refine (Cert.KernelIdeal.Body.body_at (iblk m c 0 t) (iblk m c 1 t) (iblk m c 2 t) (iblk m c 3 t) b j).trans ?_
  rw [b_block_at m c t j _ ho, s_block_at m c t j _ ho]
  refine congrArg (· + _) (Finset.sum_congr rfl fun k _ => ?_)
  rw [x_block_at m c t b k, w_block_at m c t j k _ ho]
  rfl

/-! ## The tiles cover the result -/

/-- An index is in point `t`'s tile iff each coordinate is in the tile's range. -/
theorem mem_tile (t : Fin cfg0.N) (i : S16x11008.Idx) :
    i ∈ ((cfg0.win 4).blk t).view.set ↔ ∀ a : Fin 2, win0_4.index t a * S16x256.size a ≤ (i a).val ∧ (i a).val < win0_4.index t a * S16x256.size a + S16x256.size a := by
  show i ∈ ((View.whole main_v2).slice (win0_4.rect t)).set ↔ _
  rw [View.set_slice_whole, Rect.mem_set_unit]
  exact Iff.rfl

/-- Column `o` of the result lies in tile `o / 256`, which is written back. -/
theorem tiles_cover (i : S16x11008.Idx) :
    ∃ t : Fin cfg0.N, (cfg0.win 4).flush t = true ∧ i ∈ ((cfg0.win 4).blk t).view.set := by
  have hi0 : (i 0).val < 16 := (i 0).isLt
  have hi1 : (i 1).val < 11008 := (i 1).isLt
  have hN : (i 1).val / 256 < cfg0.N := by rw [show cfg0.N = 43 from N_0]; omega
  refine ⟨⟨(i 1).val / 256, hN⟩, flush0_4 _, ?_⟩
  obtain ⟨-, -, -, -, -, -, -, -, e0, e1⟩ := block_index ⟨(i 1).val / 256, hN⟩
  rw [mem_tile]
  intro a
  match a with
  | ⟨0, _⟩ => show win0_4.index _ (0 : Fin 2) * 16 ≤ (i 0).val ∧ (i 0).val < win0_4.index _ (0 : Fin 2) * 16 + 16; omega
  | ⟨1, _⟩ =>
    show win0_4.index _ (1 : Fin 2) * 256 ≤ (i 1).val ∧ (i 1).val < win0_4.index _ (1 : Fin 2) * 256 + 256
    have e1' : win0_4.index ⟨(i 1).val / 256, hN⟩ (1 : Fin 2) = (i 1).val / 256 := e1
    omega

/-! ## The result array after the run, and the run -/

/-- After the run the result array holds the layer's output. -/
theorem final (c : Dev nD) : (dats m 0 c).arrAt 4 cfg0.N = result m c :=
  (dats m 0 c).arrAt_eq_of_cover 4 (result m c) (fun t _ => flushed_eq m c t) tiles_cover

/-- Every weakly fair execution of the idealized kernel ends with the result array at the layer's output of the arguments,
    and the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KernelLinear

end
-- ==== Proof.lean ====
/-
  A quantised linear layer, tiled over its output channels, against its plain formula.

  The inputs are an activation `x` ([16, 4096]), an integer weight `w` ([11008, 4096]), one scale per output channel
  `s` ([11008]) and a bias ([11008]). Over the extended reals both programs compute

      y[b, o] = (∑ k < 4096, x[b, k] · (real(w[o, k]) · s[o])) + bias[o].

  The reference does it in one piece: the integer weight read as reals, times the scale broadcast along each row, contracted
  with `x` over the feature axis, plus the bias broadcast down each column. The kernel does it in 43 column tiles of 256
  output channels: each grid point dequantises its 256 weight rows, contracts them with the whole of `x` into a zero
  accumulator and adds its 256 biases; the two roundings to a shorter float format on the way are the identity on the
  extended reals. Tile by tile that is the same sum of the same products in the same grouping, so no law that could fail at
  an infinity is used and the inputs' finiteness is never opened. The idealized kernel is the kernel's own text read over
  the extended reals: the idealization rewrote nothing, so there is nothing to preserve.

  The modules: Spec states the formula; RefLinear reads the reference's operations at an index and finds the formula;
  BodyAt reads the kernel body's result at one element of a tile; KernelLinear carries the tiles to the whole array.
-/
import proofs.«144215_j45810121179303_1_alg».proof.Defs
import proofs.«144215_j45810121179303_1_alg».proof.Proof.Gen.Kernel
import proofs.«144215_j45810121179303_1_alg».proof.Proof.Gen.Kernel.Skeleton
import proofs.«144215_j45810121179303_1_alg».proof.Proof.Gen.Kernel.Launch
import proofs.«144215_j45810121179303_1_alg».proof.Proof.Gen.Kernel.Points
import proofs.«144215_j45810121179303_1_alg».proof.Proof.Gen.Kernel.Frame
import proofs.«144215_j45810121179303_1_alg».proof.Proof.Gen.KernelIdeal
import proofs.«144215_j45810121179303_1_alg».proof.Proof.Gen.KernelIdeal.Skeleton
import proofs.«144215_j45810121179303_1_alg».proof.Proof.Gen.KernelIdeal.Launch
import proofs.«144215_j45810121179303_1_alg».proof.Proof.Gen.KernelIdeal.Points
import proofs.«144215_j45810121179303_1_alg».proof.Proof.Gen.KernelIdeal.Frame
import proofs.«144215_j45810121179303_1_alg».proof.Proof.Gen.ReferenceIdeal
import proofs.«144215_j45810121179303_1_alg».proof.Proof.Gen.Pre_finite_inputs
import proofs.«144215_j45810121179303_1_alg».proof.Proof.Gen.KernelIdeal.Value
import proofs.«144215_j45810121179303_1_alg».proof.Proof.Gen.ReferenceIdeal.Run
import proofs.«144215_j45810121179303_1_alg».proof.Proof.Gen.ReferenceIdeal.Read
import proofs.«144215_j45810121179303_1_alg».proof.Proof.Spec
import proofs.«144215_j45810121179303_1_alg».proof.Proof.RefLinear
import proofs.«144215_j45810121179303_1_alg».proof.Proof.BodyAt
import proofs.«144215_j45810121179303_1_alg».proof.Proof.KernelLinear
import Idealize.ShloMosaic.Adequacy
import Idealize.ShloMosaic.Init

noncomputable section

namespace Cert.Proof

open Idealize.ShloMosaic Idealize.ShloMosaic.TcCoe Idealize.SL.Sem

/-- The kernel as printed runs to the end and leaves its arguments alone. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of array operations: its run, with what it computes forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments, the kernel's result array and the reference's result are both the
    layer's output of those arguments. -/
theorem algebraic : Cert.algebraic_KernelIdeal_ReferenceIdeal := by
  intro m ρ m' ρ' _ hagree
  refine ⟨fun c => Cert.KernelIdeal.KernelLinear.result m c, Cert.KernelIdeal.KernelLinear.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v7_eq, Cert.ReferenceIdeal.RefLinear.ref_eq_linear,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
